-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 55
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x256, .bf16⟩
  | .hbm, ⟨44, _⟩ => ⟨S8192x256, .bf16⟩
  | .hbm, ⟨45, _⟩ => ⟨S8192x1, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v31) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.Pieces.lean ====
/-
  What the kernel body leaves in the carried accumulator and in the output block, case by case, as the body's
  arithmetic applied to the two input blocks and to what the accumulator held before.

  At the first column block of a row block the body stores zeros into the accumulator, reads them back and adds the
  block's row sums; at the later column blocks it adds the row sums to what the accumulator held; at the last column
  block it also copies the accumulator, after the update, into the output block.
-/
import proofs.«127332_j62113817035257_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later column block, not the last: the accumulator ends at the update of what it held. -/
theorem acc_B (c : Dev nD) (i : grid0.Coords) (a2 : Memref sig .tc .vmem S1024x256 .bf16) (h2 : a2.IsWhole)
    (a3 : Memref sig .tc .vmem S1024x256 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : ¬cond0_1 i)
    (x0 x1 : Vec F S1024x256 .bf16) (xs : Vec F S1024x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz]
  simp only [View.readAt_eq_ld, h2.read_unread, h3.read_unread, h5.read_unread, View.ld_unit_zero (S := S1024x256) hz,
    View.ld_unit_zero (S := S1024x1) hz]

/-- The last column block: the accumulator ends at the update of what it held, -/
theorem acc_C (c : Dev nD) (i : grid0.Coords) (a2 : Memref sig .tc .vmem S1024x256 .bf16) (h2 : a2.IsWhole)
    (a3 : Memref sig .tc .vmem S1024x256 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 x1 : Vec F S1024x256 .bf16) (xs : Vec F S1024x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz]
  simp only [View.readAt_eq_ld, h2.read_unread, h3.read_unread, h5.read_unread, View.ld_unit_zero (S := S1024x256) hz,
    View.ld_unit_zero (S := S1024x1) hz]

/-- and the output block holds a copy of it. -/
theorem out_C (c : Dev nD) (i : grid0.Coords) (a2 : Memref sig .tc .vmem S1024x256 .bf16) (h2 : a2.IsWhole)
    (a3 : Memref sig .tc .vmem S1024x256 .bf16) (h3 : a3.IsWhole) (a4 : Memref sig .tc .vmem S1024x1 .f32) (h4 : a4.IsWhole)
    (a5 : Memref sig .tc .vmem S1024x1 .f32) (h5 : a5.IsWhole) (hc0 : ¬cond0_0 i) (hc1 : cond0_1 i)
    (x0 x1 : Vec F S1024x256 .bf16) (xs : Vec F S1024x1 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz, View.readCov_unit_zero (S := S1024x1) _ hz]
  simp only [View.readAt_eq_ld, h2.read_unread, h3.read_unread, h5.read_unread, View.ld_unit_zero (S := S1024x256) hz,
    View.ld_unit_zero (S := S1024x1) hz]

/-- The first column block: zeros are stored, read back and updated. -/
theorem acc_A (c : Dev nD) (i : grid0.Coords) (a2 : Memref sig .tc .vmem S1024x256 .bf16) (h2 : a2.IsWhole)
    (a3 : Memref sig .tc .vmem S1024x256 .bf16) (h3 : a3.IsWhole) (a4 : Memref sig .tc .vmem S1024x1 .f32) (h4 : a4.IsWhole)
    (a5 : Memref sig .tc .vmem S1024x1 .f32) (h5 : a5.IsWhole) (hc0 : cond0_0 i) (hc1 : ¬cond0_1 i)
    (x0 x1 : Vec F S1024x256 .bf16) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x256) hz]

end Cert.KernelIdeal.Pieces

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.LibPlainDot.lean ====
/-
  The plain product of an m × k matrix by a k × n matrix, accumulated into the zero matrix, read at one
  entry over the extended reals: the sum over the contracted coordinate of the products of the entries.
  (The same reading of the host's product is the library's; this is the matrix unit's.)
-/
import Idealize.ShloMosaic.PureOps.Ideal.Laws
import Idealize.ShloMosaic.Lib.ValueIdx
import Idealize.ShloMosaic.Lib.StackMember

noncomputable section

open scoped BigOperators
open Idealize.ShloMosaic Idealize.ShloMosaic.ValueIdx

namespace Cert.LibPlainDot

/-- Entry (a, b) of the product into a zero accumulator is ∑_c A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply]
  have h := StackMember.dotGeneral_plain_apply (m := m) (n := n) prec A B a b
  rw [← h]
  show _ = FloatOps.dotGeneral (DotDims.plain m k n) prec HostSchedule.single A B (ix2 a b)
  rw [Ideal.dotGeneral_apply]

/-- Entry (a, b) of the host's plain product: the library's reading, restated beside the other. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainDot

end
-- ==== Proof.LibTiledSum.lean ====
/-
  Sums over a range cut into equal tiles, in any commutative additive monoid (the extended reals among them: no
  finiteness is used, only that addition commutes and associates).

  * `tile_lt`: position `b` of tile `a` lies inside `A` tiles of length `B`.
  * `sum_fin_tiles`: a sum over `N = A * B` indices is the sum over the tiles of the sums inside each tile.
  * `sum_range_tiles`: the same for a `Finset.range` sum of a function of the naturals.
  * `sum_sum_fin_tiles`: a double sum over a rectangle `(A * BJ) × (C * BK)` is the sum over the `A × C` tiles of the
    double sums inside each `BJ × BK` tile.
-/
import Mathlib.Algebra.BigOperators.Fin
import Mathlib.Algebra.BigOperators.Group.Finset.Basic
import Mathlib.Logic.Equiv.Fin.Basic
import Mathlib.Tactic.Ring

open scoped BigOperators

namespace TiledSum

/-- Position `b` of tile `a`, among `A` tiles of length `B`, is below `A * B`. -/
theorem tile_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B (by omega)

/-- A sum over `N = A * B` indices, tile by tile. -/
theorem sum_fin_tiles {M : Type*} [AddCommMonoid M] {N : ℕ} (A B : ℕ) (h : N = A * B) (f : Fin N → M) :
    ∑ j : Fin N, f j = ∑ a : Fin A, ∑ b : Fin B, f ⟨a.val * B + b.val, h ▸ tile_lt a b⟩ := by
  subst h
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- A `Finset.range` sum over `A * B` naturals, tile by tile. -/
theorem sum_range_tiles {M : Type*} [AddCommMonoid M] (A B : ℕ) (g : ℕ → M) :
    ∑ s ∈ Finset.range (A * B), g s = ∑ a : Fin A, ∑ b : Fin B, g (a.val * B + b.val) := by
  rw [Finset.sum_range, sum_fin_tiles A B rfl]

/-- A double sum over an `(A * BJ) × (C * BK)` rectangle: over the `A × C` tiles, then inside each `BJ × BK` tile. -/
theorem sum_sum_fin_tiles {M : Type*} [AddCommMonoid M] {NJ NK : ℕ} (A BJ C BK : ℕ) (hJ : NJ = A * BJ) (hK : NK = C * BK)
    (f : Fin NJ → Fin NK → M) :
    ∑ j : Fin NJ, ∑ k : Fin NK, f j k
      = ∑ a : Fin A, ∑ c : Fin C, ∑ jl : Fin BJ, ∑ kl : Fin BK,
          f ⟨a.val * BJ + jl.val, hJ ▸ tile_lt a jl⟩ ⟨c.val * BK + kl.val, hK ▸ tile_lt c kl⟩ := by
  rw [sum_fin_tiles A BJ hJ]
  refine Finset.sum_congr rfl fun a _ => ?_
  exact (Finset.sum_congr rfl fun jl _ => sum_fin_tiles C BK hK _).trans Finset.sum_comm

end TiledSum
-- ==== Proof.ExpSumLaw.lean ====
/-
  The arithmetic behind a row-wise sum of exponentials accumulated block by block.

  For each row the kernel adds, into a running total that starts at zero, the sums of one block of 1024 terms
  after another; the reference adds all 8192 terms at once. On the extended reals addition is commutative and
  associative without any side condition, so the two totals agree. The scaling by the word of 1.0 (a product on
  one side, a quotient on the other) is the identity on every extended real.
-/
import Idealize.ShloMosaic.PureOps.Ideal
import Idealize.ShloMosaic.PureOps.Ideal.Laws
import Idealize.ShloMosaic.Lib.ValueIdx
import proofs.«127332_j62113817035257_1_alg».proof.Proof.LibTiledSum

noncomputable section

open scoped BigOperators
open Idealize.ShloMosaic Idealize.ShloMosaic.ValueIdx

namespace Cert.ExpSumLaw

/-- The binary word 0x3F800000 denotes the real number one. -/
theorem ofBits_one : Ideal.ofBits .f32 0x3F800000#32 = (1 : EReal) := by
  simp [Ideal.ofBits, Ideal.ieee, -EReal.coe_mul]
  norm_num

/-- Multiplying by the word of 1.0 changes nothing, on every extended real. -/
theorem mul_one_word (x : EReal) : x * Ideal.ofBits .f32 0x3F800000#32 = x := by
  rw [ofBits_one, mul_one]

/-- Dividing by the word of 1.0 changes nothing, on every extended real. -/
theorem div_one_word (x : EReal) : Ideal.div x (Ideal.ofBits .f32 0x3F800000#32) = x := by
  rw [ofBits_one, ← EReal.coe_one, Ideal.div_coe one_ne_zero]
  simp

/-- The running total after block k: zero plus block 0, then one more block at a time. -/
def running (S : ℕ → EReal) : ℕ → EReal
  | 0 => 0 + S 0
  | k + 1 => running S k + S (k + 1)

theorem running_zero (S : ℕ → EReal) : running S 0 = 0 + S 0 := rfl

theorem running_succ (S : ℕ → EReal) (k : ℕ) : running S (k + 1) = running S k + S (k + 1) := rfl

/-- The running total after block k is the sum of the blocks 0 … k. -/
theorem running_eq (S : ℕ → EReal) : ∀ k, running S k = ∑ b ∈ Finset.range (k + 1), S b
  | 0 => by simp [running]
  | k + 1 => by rw [running, running_eq S k, Finset.sum_range_succ (n := k + 1)]

/-- Eight blocks of 1024 terms are the 8192 terms. -/
theorem sum_blocks (f : Fin 8192 → EReal) :
    ∑ b ∈ Finset.range 8, (∑ l : Fin 1024, if h : b * 1024 + l.val < 8192 then f ⟨b * 1024 + l.val, h⟩ else 0)
      = ∑ j : Fin 8192, f j := by
  rw [Finset.sum_range, TiledSum.sum_fin_tiles 8 1024 (by norm_num) f]
  refine Finset.sum_congr rfl fun a _ => Finset.sum_congr rfl fun b _ => ?_
  rw [dif_pos]

/-- An 8192 × 256 matrix of extended reals. -/
abbrev Mat : Type := (⟨2, ![8192, 256]⟩ : Shape).Idx → EReal

/-- exp of the inner product of row r of A with row j of N. -/
def term (A N : Mat) (r j : Fin 8192) : EReal := Ideal.exp (∑ d : Fin 256, A (ix2 r d) * N (ix2 j d))

/-- The specification: for row r, the sum over all 8192 rows j of N of exp ⟨A r, N j⟩. -/
def rowExpSum (A N : Mat) (r : Fin 8192) : EReal := ∑ j : Fin 8192, term A N r j

/-- The part of that sum over column block b: the rows b · 1024 + l of N, l below 1024. -/
def blockSum (A N : Mat) (r : Fin 8192) (b : ℕ) : EReal :=
  ∑ l : Fin 1024, if h : b * 1024 + l.val < 8192 then term A N r ⟨b * 1024 + l.val, h⟩ else 0

/-- After the eighth column block the running total is the whole row sum. -/
theorem running_seven (A N : Mat) (r : Fin 8192) : running (blockSum A N r) 7 = rowExpSum A N r := by
  rw [running_eq]
  exact sum_blocks (term A N r)

end Cert.ExpSumLaw

end
-- ==== Proof.PayloadValue.lean ====
/-
  The body's arithmetic read at one entry, on the extended reals.

  The update of the accumulator column at row p is its previous entry plus the sum, over the 1024 columns l of the
  score block, of exp of the inner product of row p of the left block with row l of the right block: the right block
  is transposed before the product, the product is accumulated into zeros, the scaling by the word of 1.0 is the
  identity, and the lane sum starts from zero.
-/
import proofs.«127332_j62113817035257_1_alg».proof.Proof.Gen.KernelIdeal.Skeleton
import proofs.«127332_j62113817035257_1_alg».proof.Proof.LibKeepdimsColumn
import proofs.«127332_j62113817035257_1_alg».proof.Proof.LibPlainDot
import proofs.«127332_j62113817035257_1_alg».proof.Proof.ExpSumLaw
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset stores zeros. -/
theorem reset_apply (y : S1024x1.Idx) : k0_pay1 (F := Ideal) y = 0 := by
  unfold k0_pay1
  rw [shapeCast_self]
  exact Ideal.ofBits_zero_f32

/-- The product of the left block with the transposed right block, into zeros, at row p and column l. -/
theorem scores_apply (x0 x1 : FVec Ideal S1024x256 .bf16) (p l : Fin 1024) :
    matmul dot_S1024x256_S256x1024_S1024x1024_1_0_0_1_n_n none x0
        (transpose S256x1024 [1, 0] x1 transposes_S1024x256_p1_0_S256x1024) (constant S1024x1024 .f32 0x00000000#32) (ix2 p l)
      = ∑ d : Fin 256, x0 (ix2 p d) * x1 (ix2 l d) := by
  have hD : dot_S1024x256_S256x1024_S1024x1024_1_0_0_1_n_n = DotDims.plain 1024 256 1024 := rfl
  rw [hD]
  refine (Cert.LibPlainDot.matmul_plain_zero_apply none x0 _ p l).trans ?_
  refine Finset.sum_congr rfl fun d _ => ?_
  rw [transpose_ix2_apply]

/-- The accumulator's update at row p. -/
theorem update_apply (x0 x1 : FVec Ideal S1024x256 .bf16) (v : FVec Ideal S1024x1 .f32) (p : Fin 1024) (u : Fin 1) :
    k0_pay2 (F := Ideal) x0 x1 v (ix2 p u)
      = v (ix2 p u) + ∑ l : Fin 1024, Ideal.exp (∑ d : Fin 256, x0 (ix2 p d) * x1 (ix2 l d)) := by
  unfold k0_pay2
  dsimp only
  simp only [shapeCast_self]
  rw [addf_apply, Cert.KeepdimsColumn.shapeCast_a_a1_apply]
  refine congrArg (v (ix2 p u) + ·) ?_
  refine (Cert.KeepdimsColumn.laneSum_apply (a := 1024) (b := 1024) _ _ _ _ _ p).trans ?_
  refine Finset.sum_congr rfl fun l _ => ?_
  show Ideal.exp (matmul dot_S1024x256_S256x1024_S1024x1024_1_0_0_1_n_n none x0
        (transpose S256x1024 [1, 0] x1 transposes_S1024x256_p1_0_S256x1024) (constant S1024x1024 .f32 0x00000000#32) (ix2 p l)
      * Ideal.ofBits .f32 0x3F800000#32) = _
  rw [Cert.ExpSumLaw.mul_one_word, scores_apply]

end Cert.KernelIdeal.Payload

end
-- ==== Proof.KernelValue.lean ====
/-
  What the kernel region leaves in its result array, on the extended reals.

  The grid is 8 row blocks by 8 column blocks, walked row block by row block. At grid position n the body sees rows
  (n / 8) · 1024 + p of the left operand and rows (n % 8) · 1024 + l of the right operand. By induction on n the
  accumulator column holds, at row p, the running total over the column blocks 0 … n % 8 of the block sums of
  exp ⟨left row, right row⟩; at the last column block that total, which is the whole row sum, is copied to the
  output block and written back. The eight write-backs tile the 8192 × 1 result array.
-/
import proofs.«127332_j62113817035257_1_alg».proof.Proof.Gen.KernelIdeal.Frame
import proofs.«127332_j62113817035257_1_alg».proof.Proof.Pieces
import proofs.«127332_j62113817035257_1_alg».proof.Proof.PayloadValue
import proofs.«127332_j62113817035257_1_alg».proof.Proof.ExpSumLaw
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)
open Cert.ExpSumLaw (Mat term rowExpSum blockSum running)

namespace Cert.KernelIdeal.ExpSum

open Cert.KernelIdeal Cert.KernelIdeal.Gen

variable (m : (ℓ : Loc nD τ sig) → Buf (Elt Ideal) ℓ) (ρ : Dev nD → PrngReg)

/-- The two operand arrays as the region finds them, and their blocks at a grid position. -/
abbrev lhsArr (c : Dev nD) : Mat := V m c main_v31
abbrev rhsArr (c : Dev nD) : Mat := V m c main_v32
abbrev lhsBlk (c : Dev nD) (t : Fin cfg0.N) : FVec Ideal S1024x256 .bf16 := iblk m c 0 t
abbrev rhsBlk (c : Dev nD) (t : Fin cfg0.N) : FVec Ideal S1024x256 .bf16 := iblk m c 1 t

/-- Position n of the grid is row block n / 8 and column block n % 8; the output block follows the row block. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Row p of the left block at position t is row (t / 8) · 1024 + p of the left operand. -/
theorem lhsBlk_apply (c : Dev nD) (t : Fin cfg0.N) (p : Fin 1024) (d : Fin 256) (r : Fin 8192)
    (hr : r.val = t.val / 8 * 1024 + p.val) : lhsBlk m c t (ix2 p d) = lhsArr m c (ix2 r d) := by
  obtain ⟨e0, e1, -, -, -, -⟩ := idx_facts t
  show iblk m c 0 t (ix2 p d) = V m c main_v31 (ix2 r d)
  unfold iblk
  rw [View.read_apply]
  show V m c main_v31 _ = V m c main_v31 _
  congr 1
  funext a
  apply Fin.ext
  match a with
  | ⟨0, _⟩ => show win0_0.index t (0 : Fin 2) * 1024 + 1 * p.val = r.val; omega
  | ⟨1, _⟩ => show win0_0.index t (1 : Fin 2) * 256 + 1 * d.val = d.val; omega

/-- Row l of the right block at position t is row (t % 8) · 1024 + l of the right operand. -/
theorem rhsBlk_apply (c : Dev nD) (t : Fin cfg0.N) (l : Fin 1024) (d : Fin 256) (j : Fin 8192)
    (hj : j.val = t.val % 8 * 1024 + l.val) : rhsBlk m c t (ix2 l d) = rhsArr m c (ix2 j d) := by
  obtain ⟨-, -, e2, e3, -, -⟩ := idx_facts t
  show iblk m c 1 t (ix2 l d) = V m c main_v32 (ix2 j d)
  unfold iblk
  rw [View.read_apply]
  show V m c main_v32 _ = V m c main_v32 _
  congr 1
  funext a
  apply Fin.ext
  match a with
  | ⟨0, _⟩ => show win0_1.index t (0 : Fin 2) * 1024 + 1 * l.val = j.val; omega
  | ⟨1, _⟩ => show win0_1.index t (1 : Fin 2) * 256 + 1 * d.val = d.val; omega

/-- The row sums of one score block are the block sum of the specification. -/
theorem blockSum_eq (c : Dev nD) (t : Fin cfg0.N) (p : Fin 1024) (r : Fin 8192) (hr : r.val = t.val / 8 * 1024 + p.val) :
    ∑ l : Fin 1024, Ideal.exp (∑ d : Fin 256, lhsBlk m c t (ix2 p d) * rhsBlk m c t (ix2 l d))
      = blockSum (lhsArr m c) (rhsArr m c) r (t.val % 8) := by
  unfold blockSum
  refine Finset.sum_congr rfl fun l _ => ?_
  have hl : t.val % 8 * 1024 + l.val < 8192 := by have := l.isLt; omega
  rw [dif_pos hl]
  unfold term
  refine congrArg Ideal.exp (Finset.sum_congr rfl fun d _ => ?_)
  rw [lhsBlk_apply m c t p d r hr, rhsBlk_apply m c t l d ⟨_, hl⟩ rfl]

/-- The running total of the block sums of row r over the column blocks 0 … k. -/
abbrev total (c : Dev nD) (r : Fin 8192) (k : ℕ) : EReal := running (blockSum (lhsArr m c) (rhsArr m c) r) k

/-- At the first column block of a row block the accumulator ends at zero plus the block's sums. -/
theorem acc_first (c : Dev nD) (t : Fin cfg0.N) (h0 : t.val % 8 = 0) (h1 : ¬t.val % 8 = 7) (p : Fin 1024) (u : Fin 1)
    (r : Fin 8192) (hr : r.val = t.val / 8 * 1024 + p.val) :
    (outsAt0 m c t.val t.isLt).2 (ix2 p u) = total m c r (t.val % 8) := by
  rw [outsAt0_A m c t h0 h1]
  dsimp only
  refine (congrFun (Pieces.acc_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) (ix2 p u)).trans ?_
  refine (Payload.update_apply (lhsBlk m c t) (rhsBlk m c t) k0_pay1 p u).trans ?_
  rw [Payload.reset_apply, blockSum_eq m c t p r hr, h0]
  rfl

/-- At a later column block it ends at what it held plus the block's sums. -/
theorem acc_later (c : Dev nD) (t : Fin cfg0.N) (h0 : ¬t.val % 8 = 0) (h1 : ¬t.val % 8 = 7) (p : Fin 1024) (u : Fin 1)
    (r : Fin 8192) (hr : r.val = t.val / 8 * 1024 + p.val)
    (ih : (outsAt0 m c (t.val - 1) (Nat.lt_of_le_of_lt (Nat.sub_le _ _) t.isLt)).2 (ix2 p u) = total m c r ((t.val - 1) % 8)) :
    (outsAt0 m c t.val t.isLt).2 (ix2 p u) = total m c r (t.val % 8) := by
  rw [outsAt0_B m c t h0 h1]
  dsimp only
  refine (congrFun (Pieces.acc_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) (ix2 p u)).trans ?_
  refine (Payload.update_apply (lhsBlk m c t) (rhsBlk m c t) (outsAt0 m c (t.val - 1) (Nat.lt_of_le_of_lt (Nat.sub_le _ _) t.isLt)).2 p u).trans ?_
  rw [ih, blockSum_eq m c t p r hr]
  have e : t.val % 8 = (t.val - 1) % 8 + 1 := by omega
  rw [e]
  rfl

/-- The same at the last column block, -/
theorem acc_last (c : Dev nD) (t : Fin cfg0.N) (h0 : ¬t.val % 8 = 0) (h1 : t.val % 8 = 7) (p : Fin 1024) (u : Fin 1)
    (r : Fin 8192) (hr : r.val = t.val / 8 * 1024 + p.val)
    (ih : (outsAt0 m c (t.val - 1) (Nat.lt_of_le_of_lt (Nat.sub_le _ _) t.isLt)).2 (ix2 p u) = total m c r ((t.val - 1) % 8)) :
    (outsAt0 m c t.val t.isLt).2 (ix2 p u) = total m c r (t.val % 8) := by
  rw [outsAt0_C m c t h0 h1]
  dsimp only
  refine (congrFun (Pieces.acc_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p u)).trans ?_
  refine (Payload.update_apply (lhsBlk m c t) (rhsBlk m c t) (outsAt0 m c (t.val - 1) (Nat.lt_of_le_of_lt (Nat.sub_le _ _) t.isLt)).2 p u).trans ?_
  rw [ih, blockSum_eq m c t p r hr]
  have e : t.val % 8 = (t.val - 1) % 8 + 1 := by omega
  rw [e]
  rfl

/-- where the output block receives the same column. -/
theorem out_last (c : Dev nD) (t : Fin cfg0.N) (h0 : ¬t.val % 8 = 0) (h1 : t.val % 8 = 7) (p : Fin 1024) (u : Fin 1)
    (r : Fin 8192) (hr : r.val = t.val / 8 * 1024 + p.val)
    (ih : (outsAt0 m c (t.val - 1) (Nat.lt_of_le_of_lt (Nat.sub_le _ _) t.isLt)).2 (ix2 p u) = total m c r ((t.val - 1) % 8)) :
    (outsAt0 m c t.val t.isLt).1 (ix2 p u) = total m c r (t.val % 8) := by
  rw [outsAt0_C m c t h0 h1]
  dsimp only
  refine (congrFun (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) (ix2 p u)).trans ?_
  refine (Payload.update_apply (lhsBlk m c t) (rhsBlk m c t) (outsAt0 m c (t.val - 1) (Nat.lt_of_le_of_lt (Nat.sub_le _ _) t.isLt)).2 p u).trans ?_
  rw [ih, blockSum_eq m c t p r hr]
  have e : t.val % 8 = (t.val - 1) % 8 + 1 := by omega
  rw [e]
  rfl

/-- THE INVARIANT: after grid position n the accumulator holds, at row p, the running total of row
    (n / 8) · 1024 + p over the column blocks 0 … n % 8. By induction on the position. -/
theorem acc_eq (c : Dev nD) : ∀ (n : ℕ) (hn : n < cfg0.N) (p : Fin 1024) (u : Fin 1) (r : Fin 8192),
    r.val = n / 8 * 1024 + p.val → (outsAt0 m c n hn).2 (ix2 p u) = total m c r (n % 8)
  | 0, hn, p, u, r, hr => acc_first m c ⟨0, hn⟩ rfl (by dsimp only; omega) p u r hr
  | n + 1, hn, p, u, r, hr => by
    by_cases h0 : (n + 1) % 8 = 0
    · exact acc_first m c ⟨n + 1, hn⟩ h0 (by dsimp only; omega) p u r hr
    · have ih := acc_eq c n (Nat.lt_of_succ_lt hn) p u r (by omega)
      by_cases h1 : (n + 1) % 8 = 7
      · exact acc_last m c ⟨n + 1, hn⟩ h0 h1 p u r hr ih
      · exact acc_later m c ⟨n + 1, hn⟩ h0 h1 p u r hr ih

end Cert.KernelIdeal.ExpSum

end
-- ==== Proof.LossTail.lean ====
/-
  The last lines of both programs: from the positive term D1 and the negative-sample sum D2, one per row, the mean
  over the 8192 rows of −log (D1 / (D1 + D2)). Both programs end with these same operations, so the tail is named
  once and never opened: the two results are equal as soon as their D1 and D2 are.
-/
import Idealize.ShloMosaic.PureOps
import Idealize.ShloMosaic.PureOps.Ideal
import Idealize.ShloMosaic.Lib.Pipeline.Value
import Idealize.ShloMosaic.Lib.ValueIdx

noncomputable section

open Idealize.ShloMosaic Idealize.ShloMosaic.ValueIdx

namespace Cert.LossTail

/-- mean over the rows of −log (d1 / (d1 + d2)). -/
def lossTail {F : FTy → Type} [FloatOps F] (hR : (⟨1, ![8192]⟩ : Shape).ReducesTo [0] ⟨0, ![]⟩)
    (h0 : 0 < (⟨0, ![]⟩ : Shape).numel) (d1 d2 : FVec F ⟨1, ![8192]⟩ .f32) : FVec F ⟨0, ![]⟩ .f32 :=
  Host.divf
    (Host.reduceAdd (Host.negf (Host.log (Host.divf d1 (addf d1 d2)))) (constant (F := F) ⟨0, ![]⟩ .f32 0x00000000#32) hR h0)
    (constant (F := F) ⟨0, ![]⟩ .f32 0x46000000#32)

/-- An 8192 × 1 column cast to a vector of length 8192 reads, at r, the column's entry of row r. -/
theorem column_cast_apply {α : Type} (v : (⟨2, ![8192, 1]⟩ : Shape).Idx → α)
    (h : (⟨2, ![8192, 1]⟩ : Shape).ShapeCasts ⟨1, ![8192]⟩) (r : Fin 8192) :
    shapeCast ⟨1, ![8192]⟩ v h (ix1 r) = v (ix2 r (0 : Fin 1)) :=
  shapeCast_apply v h _ _ (by
    rw [Shape.rowMajor_val_one, Shape.rowMajor_val_two]
    show r.val * 1 + 0 = r.val
    omega)

end Cert.LossTail

end
-- ==== Proof.KernelRun.lean ====
/-
  The kernel program's run, read: its result is the common tail applied to its D1 (computed by the host lines before
  the region) and to the region's result column cast to a vector; the region's result column holds, at row r, the
  specification's row sum of the two operand arrays as the region finds them.
-/
import proofs.«127332_j62113817035257_1_alg».proof.Proof.KernelValue
import proofs.«127332_j62113817035257_1_alg».proof.Proof.LossTail
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.ExpSumLaw (Mat term rowExpSum blockSum running)

namespace Cert.KernelIdeal.ExpSum

open Cert.KernelIdeal Cert.KernelIdeal.Gen

variable (m : (ℓ : Loc nD τ sig) → Buf (Elt Ideal) ℓ) (ρ : Dev nD → PrngReg)

/-- The result column: at row r, the row sum of the specification. -/
abbrev result (c : Dev nD) : Buf (Elt Ideal) ((c : Thread nD τ).loc main_v33) :=
  fun y => rowExpSum (lhsArr m c) (rhsArr m c) (y 0)

/-- At a last column block the output block holds, at row p, the whole row sum of row (t / 8) · 1024 + p. -/
theorem out_flush (c : Dev nD) (t : Fin cfg0.N) (h7 : t.val % 8 = 7) (y : S1024x1.Idx) (r : Fin 8192)
    (hr : r.val = t.val / 8 * 1024 + (y 0).val) :
    (outsAt0 m c t.val t.isLt).1 y = rowExpSum (lhsArr m c) (rhsArr m c) r := by
  have h0 : ¬t.val % 8 = 0 := by omega
  have ih := acc_eq m c (t.val - 1) (Nat.lt_of_le_of_lt (Nat.sub_le _ _) t.isLt) (y 0) (y 1) r (by omega)
  refine (congrArg (outsAt0 m c t.val t.isLt).1 (eq_ix2 y)).trans ?_
  refine (out_last m c t h0 h7 (y 0) (y 1) r hr ih).trans ?_
  rw [h7]
  exact Cert.ExpSumLaw.running_seven _ _ r

/-- What a write-back writes is its block of the result column. -/
theorem flushed_eq (c : Dev nD) (t : Fin cfg0.N) (hf : (cfg0.win 2).flush t = true) :
    (dats m 0 c).flushed 2 t = ((cfg0.win 2).blk t).view.read (Elt Ideal) (result m c) := by
  have h7 : t.val % 8 = 7 := (flush0_2 t).mp hf
  obtain ⟨-, -, -, -, e4, e5⟩ := idx_facts t
  show (cfg0.win 2).cut (grid0.coords t) ((dats m 0 c).after 2 t) = _
  rw [after0_2]
  funext y
  show (outsAt0 m c t.val t.isLt).1 y = rowExpSum (lhsArr m c) (rhsArr m c) ((((cfg0.win 2).blk t).view.emb y) 0)
  refine out_flush m c t h7 y _ ?_
  show win0_2.index t (0 : Fin 2) * 1024 + 1 * (y 0).val = t.val / 8 * 1024 + (y 0).val
  omega

/-- An index of the result column is in point t's block iff each coordinate is in the block's range. -/
theorem mem_blk (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v33).slice (win0_2.rect t)).set ↔ _
  rw [View.set_slice_whole, Rect.mem_set_unit]
  exact Iff.rfl

/-- Row i of the column is written back at the last column block of its row block. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : cfg0.N = 64 := N_0
  let t : Fin cfg0.N := ⟨(i 0).val / 1024 * 8 + 7, by rw [hN]; omega⟩
  have ht : t.val = (i 0).val / 1024 * 8 + 7 := rfl
  refine ⟨t, (flush0_2 t).mpr (by rw [ht]; omega), ?_⟩
  obtain ⟨-, -, -, -, e4, e5⟩ := idx_facts t
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1 ≤ (i 1).val ∧ (i 1).val < win0_2.index t (1 : Fin 2) * 1 + 1; omega

/-- THE RESULT COLUMN after the run. -/
theorem final (c : Dev nD) : (dats m 0 c).arrAt 2 cfg0.N = result m c :=
  (dats m 0 c).arrAt_eq_of_cover 2 (result m c) (flushed_eq m c) cover

/-- The host lines after the region compute the common tail of D1 and the result column. -/
theorem tail_eq (c : Dev nD) :
    Pipeline.afterTail₀ cfgs (dats m) 0 (V0 m) [hostOps1] c main_v40
      = Cert.LossTail.lossTail (F := Ideal) reducesTo_S8192_S_d0 h_S_ (V m c main_v14)
          (shapeCast S8192 (result m c) shapeCasts_S8192x1_S8192) := by
  unfold Pipeline.afterTail₀
  show StableHlo.after hostOps1 _ (Proc.devRef .tc main_v40) = _
  after_results
  have hD : Pipeline.withArrays (cfgs 0).spec c (V0 m c) (fun w => (dats m 0 c).arrAt w (cfgs 0).N) (Proc.devRef .tc main_v14)
      = V m c main_v14 :=
    Pipeline.withArrays_of_ne _ c (V0 m c) _ main_v14 (by exact (by decide : ∀ w, Pipeline.arrRef spec0 w ≠ main_v14))
  have hA : Pipeline.withArrays (cfgs 0).spec c (V0 m c) (fun w => (dats m 0 c).arrAt w (cfgs 0).N) (Proc.devRef .tc main_v33)
      = result m c :=
    (Pipeline.withArrays_arr spec0 launch0.win.arr_inj c _ _ 2).trans (final m c)
  rw [hD, hA]
  rfl

/-- THE RUN, READ: the result at the common tail of D1 and the result column, the arguments unchanged. -/
theorem run : θ_run defs (onTc (τ := τ) (main (F := Ideal))) ⟨m, fun _ => 0, ρ⟩ fun r => ∀ c : Dev nD,
      r.2.mem ((c.tc : Thread nD τ).loc main_v40)
        = Cert.LossTail.lossTail (F := Ideal) reducesTo_S8192_S_d0 h_S_ (V m c main_v14)
            (shapeCast S8192 (result m c) shapeCasts_S8192x1_S8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v40 (Pipeline.mem_restRefs_of main_v40 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ExpSum

end
-- ==== Proof.RefValue.lean ====
/-
  The reference read at the two places the kernel differs from it.

  Its negative-sample sum D2 at row r is zero plus the sum over all 8192 rows j of the normalized negatives of
  exp of (⟨a_hat r, n_hat j⟩ divided by the word of 1.0): the row sum of the specification at the normalized operands.
  Its result is the common tail applied to its D1 and D2.
-/
import proofs.«127332_j62113817035257_1_alg».proof.Proof.Gen.ReferenceIdeal.Run
import proofs.«127332_j62113817035257_1_alg».proof.Proof.Gen.ReferenceIdeal.Read
import proofs.«127332_j62113817035257_1_alg».proof.Proof.ExpSumLaw
import proofs.«127332_j62113817035257_1_alg».proof.Proof.LossTail
import Idealize.ShloMosaic.Lib.ValueIdx
import Idealize.ShloMosaic.PureOps.Ideal.Laws

noncomputable section

open scoped BigOperators
open Idealize.ShloMosaic Idealize.ShloMosaic.ValueIdx
open Cert.ExpSumLaw (Mat term rowExpSum)

namespace Cert.ReferenceIdeal.RefValue

open Cert.ReferenceIdeal Cert.ReferenceIdeal.Gen Cert.ReferenceIdeal.Read

/-- D2 at row r is the specification's row sum at the normalized anchors and negatives. -/
theorem d2_apply (x0 x2 : (⟨S8192x256, .f32⟩ : BufTy).Contents (Elt Ideal)) (r : Fin 8192) :
    val_main_v35 (F := Ideal) x0 x2 (ix1 r)
      = rowExpSum (val_main_v22 (F := Ideal) x0) (val_main_v30 (F := Ideal) x2) r := by
  rw [val_main_v35_apply, val_main_cst_9_apply]
  show Ideal.ofBits .f32 0x00000000#32 + _ = _
  rw [Ideal.ofBits_zero_f32, zero_add]
  unfold rowExpSum term
  refine Finset.sum_congr rfl fun j _ => ?_
  rw [val_main_v34_apply, val_main_v33_apply, val_main_v32_apply, val_main_cst_8_apply, val_main_v31_apply]
  show Ideal.exp (Ideal.div _ (Ideal.ofBits .f32 0x3F800000#32)) = _
  rw [Cert.ExpSumLaw.div_one_word]
  refine congrArg Ideal.exp (Finset.sum_congr rfl fun d _ => ?_)
  have el : lidx_main_v31 (idx_main_v35 (ix1 r) j) d = ix2 r d :=
    funext fun a => Fin.ext (by match a with | ⟨0, _⟩ => rfl | ⟨1, _⟩ => rfl)
  have er : ridx_main_v31 (idx_main_v35 (ix1 r) j) d = ix2 j d :=
    funext fun a => Fin.ext (by match a with | ⟨0, _⟩ => rfl | ⟨1, _⟩ => rfl)
  rw [el, er]

/-- The reference's result is the common tail of its D1 and D2. -/
theorem result_eq (x0 x1 x2 : (⟨S8192x256, .f32⟩ : BufTy).Contents (Elt Ideal)) :
    val_main_v41 (F := Ideal) x0 x1 x2
      = Cert.LossTail.lossTail (F := Ideal) reducesTo_S8192_S_d0 h_S_ (val_main_v14 (F := Ideal) x0 x1) (val_main_v35 (F := Ideal) x0 x2) := rfl

end Cert.ReferenceIdeal.RefValue

end
-- ==== Proof.Bridge.lean ====
/-
  The two programs compute one function.

  The host lines before the kernel's region are the reference's own first lines: the positive term D1, the normalized
  anchors and the normalized negatives are the same terms of the arguments (the change of float format before the
  region is the identity on the extended reals). The region's result column, cast to a vector, is then the reference's
  negative-sample sum: both are the specification's row sum of the same two matrices. Both programs end with the same
  tail.
-/
import proofs.«127332_j62113817035257_1_alg».proof.Proof.KernelRun
import proofs.«127332_j62113817035257_1_alg».proof.Proof.RefValue

noncomputable section

open scoped BigOperators
open Idealize.ShloMosaic Idealize.ShloMosaic.TcCoe Idealize.SL.Sem Idealize.ShloMosaic.ValueIdx
open Cert.ExpSumLaw (Mat rowExpSum)

namespace Cert.Bridge

open Cert.KernelIdeal Cert.KernelIdeal.Gen

variable (m : (ℓ : Loc nD τ sig) → Buf (Elt Ideal) ℓ)

/-- The kernel program's D1 is the reference's. -/
theorem d1_eq (c : Dev nD) :
    (V m c main_v14 : FVec Ideal ⟨1, ![8192]⟩ .f32)
      = Cert.ReferenceIdeal.Read.val_main_v14 (F := Ideal) (m ((c.tc : Thread nD τ).loc main_arg0)) (m ((c.tc : Thread nD τ).loc main_arg1)) := by
  show StableHlo.after hostOps0 (fun b => m (c, b)) (Proc.devRef .tc main_v14) = _
  after_results
  rfl

set_option maxHeartbeats 1600000 in
/-- The left operand of the region is the reference's normalized anchors. -/
theorem lhs_eq (c : Dev nD) :
    (V m c main_v31 : Mat) = Cert.ReferenceIdeal.Read.val_main_v22 (F := Ideal) (m ((c.tc : Thread nD τ).loc main_arg0)) := by
  show StableHlo.after hostOps0 (fun b => m (c, b)) (Proc.devRef .tc main_v31) = _
  after_results
  rfl

set_option maxHeartbeats 1600000 in
/-- The right operand of the region is the reference's normalized negatives. -/
theorem rhs_eq (c : Dev nD) :
    (V m c main_v32 : Mat) = Cert.ReferenceIdeal.Read.val_main_v30 (F := Ideal) (m ((c.tc : Thread nD τ).loc main_arg2)) := by
  show StableHlo.after hostOps0 (fun b => m (c, b)) (Proc.devRef .tc main_v32) = _
  after_results
  rfl

/-- The region's result column, as a vector, is the reference's negative-sample sum. -/
theorem d2_eq (c : Dev nD) :
    shapeCast S8192 (Cert.KernelIdeal.ExpSum.result m c) shapeCasts_S8192x1_S8192
      = Cert.ReferenceIdeal.Read.val_main_v35 (F := Ideal) (m ((c.tc : Thread nD τ).loc main_arg0)) (m ((c.tc : Thread nD τ).loc main_arg2)) := by
  funext i
  obtain ⟨r, rfl⟩ : ∃ r : Fin 8192, i = ix1 r := ⟨i 0, eq_ix1 i⟩
  refine (Cert.LossTail.column_cast_apply _ _ r).trans ?_
  rw [Cert.ReferenceIdeal.RefValue.d2_apply]
  show rowExpSum (V m c main_v31) (V m c main_v32) _ = _
  rw [lhs_eq, rhs_eq]
  rfl

/-- So the kernel program's result is the reference's result term. -/
theorem result_eq (c : Dev nD) :
    Cert.LossTail.lossTail (F := Ideal) reducesTo_S8192_S_d0 h_S_ (V m c main_v14)
        (shapeCast S8192 (Cert.KernelIdeal.ExpSum.result m c) shapeCasts_S8192x1_S8192)
      = Cert.ReferenceIdeal.Read.val_main_v41 (F := Ideal) (m ((c.tc : Thread nD τ).loc main_arg0))
          (m ((c.tc : Thread nD τ).loc main_arg1)) (m ((c.tc : Thread nD τ).loc main_arg2)) := by
  rw [Cert.ReferenceIdeal.RefValue.result_eq, d1_eq, d2_eq]

end Cert.Bridge

end
-- ==== Proof.lean ====
/-
  A triplet loss with in-batch negatives: for each of 8192 rows, D1 = exp of the cosine similarity of the anchor and
  the positive, D2 = the sum over all 8192 negatives j of exp ⟨a_hat, n_hat j⟩ over the L2-normalized anchor and
  negatives, and the result is the mean of −log (D1 / (D1 + D2)).

  The kernel computes D2 on a grid of 8 × 8 blocks of the 8192 × 8192 score matrix: for a block of 1024 anchors it
  accumulates, one block of 1024 negatives after another, the row sums of exp of the block's scores, starting from
  zero, and writes the column back after the eighth block. The reference forms the whole score matrix and sums each
  row at once. On the extended reals both are the same sum: addition there is commutative and associative without
  side conditions, so no finiteness of the inputs is used; the kernel's product with the word of 1.0 and the
  reference's quotient by it are both the identity; the change of float format before the kernel is the identity.
  Everything before and after D2 is the same sequence of operations in both programs.

  The frames of the two kernel programs are the generated ones; the reference's frame is its generated run.
-/
import proofs.«127332_j62113817035257_1_alg».proof.Defs
import proofs.«127332_j62113817035257_1_alg».proof.Proof.Gen.Kernel
import proofs.«127332_j62113817035257_1_alg».proof.Proof.Gen.Kernel.Frame
import proofs.«127332_j62113817035257_1_alg».proof.Proof.Gen.KernelIdeal
import proofs.«127332_j62113817035257_1_alg».proof.Proof.Gen.KernelIdeal.Frame
import proofs.«127332_j62113817035257_1_alg».proof.Proof.Gen.ReferenceIdeal
import proofs.«127332_j62113817035257_1_alg».proof.Proof.Gen.ReferenceIdeal.Run
import proofs.«127332_j62113817035257_1_alg».proof.Proof.Gen.ReferenceIdeal.Read
import proofs.«127332_j62113817035257_1_alg».proof.Proof.Gen.Pre_finite_inputs
import proofs.«127332_j62113817035257_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the reference's result term of the (agreeing) arguments. -/
theorem algebraic : Cert.algebraic_KernelIdeal_ReferenceIdeal := by
  intro m ρ m' ρ' _ hagree
  refine ⟨fun c => Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Bridge.result_eq m c), (h c).2⟩) (Cert.KernelIdeal.ExpSum.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.Read.val_main_v41_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
